-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1600000x64 .f32) (main_arg1 : FVec F S100000x64 .f32) (main_arg2 : IVec S1600000 32) (main_arg3 : IVec S1600000 32) (main_arg4 : FVec F S64x64 .f32) (main_arg5 : FVec F S64 .f32) (main_arg6 : FVec F S64x64 .f32) (main_arg7 : FVec F S64 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S1600000x64 : Shape := ⟨2, ![1600000, 64]⟩
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1x64 : Shape := ⟨2, ![1, 64]⟩
abbrev S4096x64 : Shape := ⟨2, ![4096, 64]⟩

abbrev nBuf : Space → Nat
  | .hbm => 24
  | .vmem => 10
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1x64, .f32⟩
  | .hbm, ⟨18, _⟩ => ⟨S1x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S4096x64, .f32⟩
  | .local _ .vmem, ⟨9, _⟩ => ⟨S4096x64, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S4096x64 : S4096x64.ShapeCasts S4096x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S4096x64_S64x64_S4096x64_1_0_0_1_n_n_wf : DotDims.WF S4096x64 S64x64 S4096x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S1600000x64.size a
  hwx0_0 : ∀ i : grid0.Coords, EltTy.bits .f32 = 32 ∨ (Rect.unit (s := S1600000x64) (fun a => cc0_transform_0 i a * S4096x64.size a) (fun a => (Pipeline.Clip.of (cc0_transform_0 i a) (S4096x64.size a) (S1600000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S1600000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x64.size a < S1600000x64.size a
  hwx0_1 : ∀ i : grid0.Coords, EltTy.bits .f32 = 32 ∨ (Rect.unit (s := S1600000x64) (fun a => cc0_transform_1 i a * S4096x64.size a) (fun a => (Pipeline.Clip.of (cc0_transform_1 i a) (S4096x64.size a) (S1600000x64.size a)).extent (S4096x64.size a)) fun a => Pipeline.Clip.inb (Pipeline.Clip.ok_of (hstart0_1 i a))).WholeWords (EltTy.packing .f32)
  hwxs0_1 : ∀ i : grid0.Coords, EltTy.bits .f32 = 32 ∨ (Rect.unit (s := S4096x64) (fun _ => 0) (fun a => (Pipeline.Clip.of (cc0_transform_1 i a) (S4096x64.size a) (S1600000x64.size a)).extent (S4096x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S4096x64.size a < S1600000x64.size a
  hwx0_6 : ∀ i : grid0.Coords, EltTy.bits .f32 = 32 ∨ (Rect.unit (s := S1600000x64) (fun a => cc0_transform_6 i a * S4096x64.size a) (fun a => (Pipeline.Clip.of (cc0_transform_6 i a) (S4096x64.size a) (S1600000x64.size a)).extent (S4096x64.size a)) fun a => Pipeline.Clip.inb (Pipeline.Clip.ok_of (hstart0_6 i a))).WholeWords (EltTy.packing .f32)
  hwxs0_6 : ∀ i : grid0.Coords, EltTy.bits .f32 = 32 ∨ (Rect.unit (s := S4096x64) (fun _ => 0) (fun a => (Pipeline.Clip.of (cc0_transform_6 i a) (S4096x64.size a) (S1600000x64.size a)).extent (S4096x64.size a)) fun a => (Nat.zero_add _).trans_le (Pipeline.Clip.extent_le (Pipeline.Clip.ok_of (hstart0_6 i a)))).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpecClip (Memref.whole main_arg0) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v6) S4096x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v9) S4096x64.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x1 : Shape := ⟨2, ![1600000, 1]⟩

abbrev nBuf : Space → Nat
  | .hbm => 45
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x64, .f32⟩
  | .hbm, ⟨9, _⟩ => ⟨S1x64, .f32⟩
  | .hbm, ⟨10, _⟩ => ⟨S1600000x64, .f32⟩
  | .hbm, ⟨11, _⟩ => ⟨S1600000x64, .f32⟩
  | .hbm, ⟨12, _⟩ => ⟨S_, .f32⟩
  | .hbm, ⟨13, _⟩ => ⟨S1600000x64, .f32⟩
  | .hbm, ⟨14, _⟩ => ⟨S1600000x64, .f32⟩
  | .hbm, ⟨15, _⟩ => ⟨S_, .f32⟩
  | .hbm, ⟨16, _⟩ => ⟨S1600000x64, .f32⟩
  | .hbm, ⟨17, _⟩ => ⟨S1600000x64, .i1⟩
  | .hbm, ⟨18, _⟩ => ⟨S_, .f32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S1600000x64, .f32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.K.Body.lean ====
import proofs.«174815_j47614007443631_1_alg».proof.Proof.Gen.Kernel.Frame
import proofs.«174815_j47614007443631_1_alg».proof.Proof.Gen.Kernel.Skeleton
import Idealize.ShloMosaic.Lib.Pipeline.Value

/-!
The kernel body, run once on whole staging buffers, and the proof data of its one pipeline.

The grid has 391 points over 1 600 000 edge rows in blocks of 4096: the last block holds 2560 rows of the
arrays and 1536 rows past their end, whose staging contents nothing names.  Each point's body reads the two
row blocks and the four parameter blocks whole, computes the per-row two-layer perceptron times the gathered
row, and stores the product block whole.  The three windows along the edge axis are stated only on the rows
inside the arrays.
-/

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The kernel calls nothing: no variants. -/
abbrev 𝒱₀ : Variants := Variants.none

/-- A whole-buffer rectangle starts at the origin. -/
theorem off0 : (![0, 0] : Fin 2 → ℕ) = fun _ => 0 := funext fun a => by fin_cases a <;> rfl

/-- The rectangle of a whole 4096 × 64 staging buffer. -/
abbrev rBlk : Rect S4096x64 := Rect.unit (s := S4096x64) ![0, 0] S4096x64.size inb_S4096x64_S4096x64_0_0

/-- One store through the whole-buffer rectangle covers every index of the buffer. -/
theorem cover_rBlk (w : Vec F S4096x64 .f32) (y : S4096x64.Idx) :
    ∃ pc ∈ ([⟨rBlk, w⟩] : List (View.Piece (Elt F) S4096x64 .f32)), y ∈ pc.1.set :=
  View.cover_of_tiled [⟨rBlk, w⟩] S4096x64.size (by rfl) y

/-! ## The body's triple -/

/-- The body on whole staging memrefs holding `x1` (the edge-feature rows), `x2` (the gathered node rows), `x3`, `x4`,
    `x5`, `x6` (the two layers' weights and biases) and anything in the result's: six whole loads, the payload, one whole
    store — the inputs' buffers as they were, the result's at the payload of what the six hold. -/
theorem sound_kernel (c : Dev nD) (i : grid0.Coords)
    (arg1 : Memref sig .tc .vmem S4096x64 .f32) (harg1 : arg1.IsWhole) (arg2 : Memref sig .tc .vmem S4096x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x64 .f32) (harg7 : arg7.IsWhole)
    (x1 x2 : Vec F S4096x64 .f32) (x3 : Vec F S64x64 .f32) (x4 : Vec F S1x64 .f32) (x5 : Vec F S64x64 .f32) (x6 : Vec F S1x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (k0_pay1 x1 x3 x4 x5 x6 x2)) -∗ K ⟨⟩))
      ⊢ wp frame (wpE (defs₀ (F := F)) 𝒱₀ c none) Set.univ
          (cc0__edge_mlp_gather_mul_kernel i arg1 harg1 arg2 harg2 arg3 harg3 arg4 harg4 arg5 harg5 arg6 harg6 arg7 harg7) K := by
  simp only [cc0__edge_mlp_gather_mul_kernel_eq_skeleton]; unfold cc0__edge_mlp_gather_mul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  · iexists _; isplitr
    swap; · iexact H7
    ipureintro
    rw [View.read_writes_eq_canon _ _ _ (cover_rBlk _), View.canon_unit_zero off0]
    simp only [View.readAt_eq_ld, View.ld_unit_zero (S := S4096x64) off0, View.ld_unit_zero (S := S64x64) off0,
      View.ld_unit_zero (S := S1x64) off0]

/-! ## The pipeline's proof data -/

variable (m : (ℓ : Loc nD τ sig) → Buf (Elt F) ℓ) (ρ : Dev nD → PrngReg)

/-- The edge-feature block of point `t` as its staging buffer holds it, filled out past the array's end with a word
    nothing reads; -/
def xfull (c : Dev nD) (t : Fin cfg0.N) : S4096x64.Idx → Elt F .f32 :=
  win0_0.fill (grid0.coords t) (fun _ => Scalar.ofBits .f32 0#32) (iblk m c 0 t)
/-- the gathered-row block likewise; -/
def gfull (c : Dev nD) (t : Fin cfg0.N) : S4096x64.Idx → Elt F .f32 :=
  win0_1.fill (grid0.coords t) (fun _ => Scalar.ofBits .f32 0#32) (iblk m c 1 t)
/-- and the message block the body computes from those two and the four parameter blocks. -/
def ofull (c : Dev nD) (t : Fin cfg0.N) : S4096x64.Idx → Elt F .f32 :=
  k0_pay1 (xfull m c t) (iblk m c 2 t) (iblk m c 3 t) (iblk m c 4 t) (iblk m c 5 t) (gfull m c t)

/-- The proof data of the one pipeline on core `c`: the arrays as the region finds them; after the body at point `t` the
    two row windows at their blocks (on the rows inside the arrays), the four parameter windows at their blocks, the
    result's at the message block; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => gfull m c t
    | ⟨2, _⟩ => iblk m c 2 t
    | ⟨3, _⟩ => iblk m c 3 t
    | ⟨4, _⟩ => iblk m c 4 t
    | ⟨5, _⟩ => iblk m c 5 t
    | ⟨6, _⟩ => ofull m c t
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = xfull m c t := by dsimp only [dats]
theorem after0_1 (c : Dev nD) (t : Fin cfg0.N) : (dats m 0 c).after 1 t = gfull m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = ofull m c t := by dsimp only [dats]

/-- What the body finds: the two row windows just fetched — the block on the rows inside the array, `d` past its end —, -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- the four parameter windows at their blocks, fetched at the first point and kept, -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- and the result's buffer at contents nothing names (it was written back at the point before). -/
theorem before0_6 (c : Dev nD) (t : Fin cfg0.N) (d) : (dats m 0 c).before 6 t d = d :=
  (dats m 0 c).before_out_reset 6 rfl t
    (by by_cases h : t.val = 0
        · exact .inl h
        · exact .inr ⟨h, flush0_6 _⟩) d

/-! ## The body obligation -/

/-- The one window a frame claim does not read: the result's. -/
abbrev fgtOut : Fin 7 → Bool := fun | 0 => false | 1 => false | 2 => false | 3 => false | 4 => false | 5 => false | 6 => true | ⟨_ + 7, h⟩ => absurd h (Nat.not_lt.2 (Nat.le_add_left _ _))

/-- The body at point `t`, continuation-passing, on the point's staging buffers: the row windows arrive holding their
    blocks filled out with `d0`, `d1` past the arrays' end, the parameter windows their blocks, the result's anything; they
    leave as they came, the result's holding the payload of the six. -/
theorem sound_body (c : Dev nD) (t : Fin cfg0.N) (d0 d1 : S4096x64.Idx → Elt F .f32) (K : PUnit → sProp 𝕄) :
    iprop(owns (c : Thread nD τ) (st0_0 t) fullShare (win0_0.fill (grid0.coords t) d0 (iblk m c 0 t))
        ∗ owns (c : Thread nD τ) (st0_1 t) fullShare (win0_1.fill (grid0.coords t) d1 (iblk m c 1 t))
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ (∃ d, owns (c : Thread nD τ) (st0_6 t) fullShare d)
        ∗ (iprop(owns (c : Thread nD τ) (st0_0 t) fullShare (win0_0.fill (grid0.coords t) d0 (iblk m c 0 t))
            ∗ owns (c : Thread nD τ) (st0_1 t) fullShare (win0_1.fill (grid0.coords t) d1 (iblk m c 1 t))
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (iblk m c 5 t)
            ∗ owns (c : Thread nD τ) (st0_6 t) fullShare
                (k0_pay1 (win0_0.fill (grid0.coords t) d0 (iblk m c 0 t)) (iblk m c 2 t) (iblk m c 3 t) (iblk m c 4 t) (iblk m c 5 t)
                  (win0_1.fill (grid0.coords t) d1 (iblk m c 1 t)))) -∗ K ⟨⟩))
      ⊢ wp frame (wpE (defs₀ (F := F)) 𝒱₀ c none) Set.univ (bodyAt0 t) K := by
  unfold bodyAt0
  exact sound_kernel (F := F) c (grid0.coords t) _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) K

/-- The library's body obligation with the result's window forgotten: the row and parameter windows leave as they came
    (which on the rows inside the arrays is their blocks), and of the result's buffer nothing is said. For every float
    instance. -/
theorem body_obligation_fgt (c : Dev nD) :
    BodyObligationLoose (dats m 0 c) (defs₀ (F := F)) 𝒱₀ () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩⟩
  rw [before0_0 m c t d0, before0_1 m c t d1, before0_2 m c t d2, before0_3 m c t d3, before0_4 m c t d4, before0_5 m c t d5]
  iapply (sound_body (F := F) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexists X6; iexact H6
  iintro ⟨H0, H1, H2, H3, H4, H5, H6⟩
  isplitl [HΦ]; · iexact HΦ
  isplitl [Ho]; · iexact Ho
  have hx : win0_0.cut (grid0.coords t) (xfull m c t) = iblk m c 0 t := win0_0.cut_fill _ _ _
  have hg : win0_1.cut (grid0.coords t) (gfull m c t) = iblk m c 1 t := win0_1.cut_fill _ _ _
  isplitl [H0]
  · iexists d0
    rw [after0_0 m c t]
    change _ ⊢ owns (c : Thread nD τ) (st0_0 t) fullShare (win0_0.fill (grid0.coords t) d0 (win0_0.cut (grid0.coords t) (xfull m c t)))
    rw [hx]; try iexact H0
  isplitl [H1]
  · iexists d1
    rw [after0_1 m c t]
    change _ ⊢ owns (c : Thread nD τ) (st0_1 t) fullShare (win0_1.fill (grid0.coords t) d1 (win0_1.cut (grid0.coords t) (gfull m c t)))
    rw [hg]; try iexact H1
  isplitl [H2]; · rw [after0_2 m c t]; iexact H2
  isplitl [H3]; · rw [after0_3 m c t]; iexact H3
  isplitl [H4]; · rw [after0_4 m c t]; iexact H4
  isplitl [H5]; · rw [after0_5 m c t]; iexact H5
  iexists _; iexact H6

end Cert.Proof.K

end
-- ==== Proof.K.Frame.lean ====
import proofs.«174815_j47614007443631_1_alg».proof.Proof.K.Body
import Idealize.ShloMosaic.Lib.Pipeline.FrameSuffix

/-!
The frame of the program: every weakly fair execution terminates, faults nowhere, and leaves the eight argument
arrays as launched.

What the result's staging buffer holds on the rows inside the array is not named here: past the arrays' end the two row
windows hold words the machine picks, and at the bit level a matrix product is not read row by row. So the run is taken
over relational proof data with the result's window forgotten; the message array then holds some contents, which the
scatter after the region reads as data only (its indices are the destination argument's), and the frame follows.
-/

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F]

variable (m : (ℓ : Loc nD τ sig) → Buf (Elt F) ℓ) (ρ : Dev nD → PrngReg)

/-- The proof data read relationally, the result's window forgotten. -/
def rdat (c : Dev nD) : RDat τ (Elt F) Unit ℕ (UR sig nD τ) ℕ cfg0 c := (dats m 0 c).toRForget fgtOut

/-- The buffers the four host lines after the region write: the zero, its broadcast, the reshaped destination indices
    and the scattered sum. -/
abbrev tailWrites : Finset (Ref sig .tc) := {main_cst, main_v10, main_v11, main_v12}

/-- Each of those lines writes one of them. -/
theorem tail_writes_sub : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.unary_writes, StableHlo.ternary_writes, Finset.mem_singleton] at hb
    have hb' := Proc.devRef_injective (τ := τ) _ hb
    subst hb'
    decide

set_option backward.isDefEq.respectTransparency.types false in
/-- The run: from any memory with zero counters every weakly fair execution of the program terminates; every array of
    the pipeline ends at contents it may hold after the write-backs (an input at its entry contents) and every other
    unscoped buffer the later lines do not write at what the region found. -/
theorem run_frame : θ_run defs (onTc (τ := τ) (main (F := F))) (s₀ m ρ)
    (RDat.FramePostR cfg0 (rdat m) tailWrites (fun c b => V0 m c (Proc.devRef .tc b))) :=
  Pipeline.RDat.θ_run_frame_around_T cfgs (0 : Fin 1) launch0 defs₀ 𝒱₀ (rdat m) tailWrites m ρ main
    (hbody := fun c => (body_obligation_fgt m c).toRForget)
    (hshare := fun c => (dats m 0 c).share_full fun _ => rfl) (howed := fun _ _ => rfl)
    (V₀ := V0 m) (opss := [hostOps1]) (hsub := sfx_sub) (hfresh := sfx_fresh) (hkeep := sfx_keeps)
    (hT := tail_writes_sub) (hmain := hmain m 𝒱₀) (hA := fun _ _ => rfl) (hΦ := fun _ _ => rfl)

/-- THE FRAME, at any float instance: the three argument arrays the pipeline stages are inputs, never written; the five
    it does not stage bypass the region and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(RDat.FramePostR.arr_in (cfg₁ := cfg0) (rdat := rdat m) h c 0 rfl).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     (RDat.FramePostR.arr_in (cfg₁ := cfg0) (rdat := rdat m) h c 2 rfl).trans (V_main_arg4 m c),
     ((h c).2 main_arg5 (Finset.mem_sdiff.mpr ⟨Pipeline.mem_restRefs_of main_arg5 (by decide) (by decide), by decide⟩)).trans (V_main_arg5 m c),
     (RDat.FramePostR.arr_in (cfg₁ := cfg0) (rdat := rdat m) h c 4 rfl).trans (V_main_arg6 m c),
     ((h c).2 main_arg7 (Finset.mem_sdiff.mpr ⟨Pipeline.mem_restRefs_of main_arg7 (by decide) (by decide), by decide⟩)).trans (V_main_arg7 m c)⟩)
    (run_frame m ρ)

end Cert.Proof.K

end
-- ==== Proof.KI.Body.lean ====
import proofs.«174815_j47614007443631_1_alg».proof.Proof.Gen.KernelIdeal.Frame
import proofs.«174815_j47614007443631_1_alg».proof.Proof.Gen.KernelIdeal.Skeleton
import Idealize.ShloMosaic.Lib.Pipeline.Value

/-!
The kernel body, run once on whole staging buffers, and the proof data of its one pipeline.

The grid has 391 points over 1 600 000 edge rows in blocks of 4096: the last block holds 2560 rows of the
arrays and 1536 rows past their end, whose staging contents nothing names.  Each point's body reads the two
row blocks and the four parameter blocks whole, computes the per-row two-layer perceptron times the gathered
row, and stores the product block whole.  The three windows along the edge axis are stated only on the rows
inside the arrays.
-/

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The kernel calls nothing: no variants. -/
abbrev 𝒱₀ : Variants := Variants.none

/-- A whole-buffer rectangle starts at the origin. -/
theorem off0 : (![0, 0] : Fin 2 → ℕ) = fun _ => 0 := funext fun a => by fin_cases a <;> rfl

/-- The rectangle of a whole 4096 × 64 staging buffer. -/
abbrev rBlk : Rect S4096x64 := Rect.unit (s := S4096x64) ![0, 0] S4096x64.size inb_S4096x64_S4096x64_0_0

/-- One store through the whole-buffer rectangle covers every index of the buffer. -/
theorem cover_rBlk (w : Vec F S4096x64 .f32) (y : S4096x64.Idx) :
    ∃ pc ∈ ([⟨rBlk, w⟩] : List (View.Piece (Elt F) S4096x64 .f32)), y ∈ pc.1.set :=
  View.cover_of_tiled [⟨rBlk, w⟩] S4096x64.size (by rfl) y

/-! ## The body's triple -/

/-- The body on whole staging memrefs holding `x1` (the edge-feature rows), `x2` (the gathered node rows), `x3`, `x4`,
    `x5`, `x6` (the two layers' weights and biases) and anything in the result's: six whole loads, the payload, one whole
    store — the inputs' buffers as they were, the result's at the payload of what the six hold. -/
theorem sound_kernel (c : Dev nD) (i : grid0.Coords)
    (arg1 : Memref sig .tc .vmem S4096x64 .f32) (harg1 : arg1.IsWhole) (arg2 : Memref sig .tc .vmem S4096x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S4096x64 .f32) (harg7 : arg7.IsWhole)
    (x1 x2 : Vec F S4096x64 .f32) (x3 : Vec F S64x64 .f32) (x4 : Vec F S1x64 .f32) (x5 : Vec F S64x64 .f32) (x6 : Vec F S1x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (k0_pay1 x1 x3 x4 x5 x6 x2)) -∗ K ⟨⟩))
      ⊢ wp frame (wpE (defs₀ (F := F)) 𝒱₀ c none) Set.univ
          (cc0__edge_mlp_gather_mul_kernel i arg1 harg1 arg2 harg2 arg3 harg3 arg4 harg4 arg5 harg5 arg6 harg6 arg7 harg7) K := by
  simp only [cc0__edge_mlp_gather_mul_kernel_eq_skeleton]; unfold cc0__edge_mlp_gather_mul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  · iexists _; isplitr
    swap; · iexact H7
    ipureintro
    rw [View.read_writes_eq_canon _ _ _ (cover_rBlk _), View.canon_unit_zero off0]
    simp only [View.readAt_eq_ld, View.ld_unit_zero (S := S4096x64) off0, View.ld_unit_zero (S := S64x64) off0,
      View.ld_unit_zero (S := S1x64) off0]

/-! ## The pipeline's proof data -/

variable (m : (ℓ : Loc nD τ sig) → Buf (Elt F) ℓ) (ρ : Dev nD → PrngReg)

/-- The edge-feature block of point `t` as its staging buffer holds it, filled out past the array's end with a word
    nothing reads; -/
def xfull (c : Dev nD) (t : Fin cfg0.N) : S4096x64.Idx → Elt F .f32 :=
  win0_0.fill (grid0.coords t) (fun _ => Scalar.ofBits .f32 0#32) (iblk m c 0 t)
/-- the gathered-row block likewise; -/
def gfull (c : Dev nD) (t : Fin cfg0.N) : S4096x64.Idx → Elt F .f32 :=
  win0_1.fill (grid0.coords t) (fun _ => Scalar.ofBits .f32 0#32) (iblk m c 1 t)
/-- and the message block the body computes from those two and the four parameter blocks. -/
def ofull (c : Dev nD) (t : Fin cfg0.N) : S4096x64.Idx → Elt F .f32 :=
  k0_pay1 (xfull m c t) (iblk m c 2 t) (iblk m c 3 t) (iblk m c 4 t) (iblk m c 5 t) (gfull m c t)

/-- The proof data of the one pipeline on core `c`: the arrays as the region finds them; after the body at point `t` the
    two row windows at their blocks (on the rows inside the arrays), the four parameter windows at their blocks, the
    result's at the message block; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => gfull m c t
    | ⟨2, _⟩ => iblk m c 2 t
    | ⟨3, _⟩ => iblk m c 3 t
    | ⟨4, _⟩ => iblk m c 4 t
    | ⟨5, _⟩ => iblk m c 5 t
    | ⟨6, _⟩ => ofull m c t
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = xfull m c t := by dsimp only [dats]
theorem after0_1 (c : Dev nD) (t : Fin cfg0.N) : (dats m 0 c).after 1 t = gfull m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = ofull m c t := by dsimp only [dats]

/-- What the body finds: the two row windows just fetched — the block on the rows inside the array, `d` past its end —, -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- the four parameter windows at their blocks, fetched at the first point and kept, -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- and the result's buffer at contents nothing names (it was written back at the point before). -/
theorem before0_6 (c : Dev nD) (t : Fin cfg0.N) (d) : (dats m 0 c).before 6 t d = d :=
  (dats m 0 c).before_out_reset 6 rfl t
    (by by_cases h : t.val = 0
        · exact .inl h
        · exact .inr ⟨h, flush0_6 _⟩) d

/-! ## The body obligation -/

/-- The one window a frame claim does not read: the result's. -/
abbrev fgtOut : Fin 7 → Bool := fun | 0 => false | 1 => false | 2 => false | 3 => false | 4 => false | 5 => false | 6 => true | ⟨_ + 7, h⟩ => absurd h (Nat.not_lt.2 (Nat.le_add_left _ _))

/-- The body at point `t`, continuation-passing, on the point's staging buffers: the row windows arrive holding their
    blocks filled out with `d0`, `d1` past the arrays' end, the parameter windows their blocks, the result's anything; they
    leave as they came, the result's holding the payload of the six. -/
theorem sound_body (c : Dev nD) (t : Fin cfg0.N) (d0 d1 : S4096x64.Idx → Elt F .f32) (K : PUnit → sProp 𝕄) :
    iprop(owns (c : Thread nD τ) (st0_0 t) fullShare (win0_0.fill (grid0.coords t) d0 (iblk m c 0 t))
        ∗ owns (c : Thread nD τ) (st0_1 t) fullShare (win0_1.fill (grid0.coords t) d1 (iblk m c 1 t))
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ (∃ d, owns (c : Thread nD τ) (st0_6 t) fullShare d)
        ∗ (iprop(owns (c : Thread nD τ) (st0_0 t) fullShare (win0_0.fill (grid0.coords t) d0 (iblk m c 0 t))
            ∗ owns (c : Thread nD τ) (st0_1 t) fullShare (win0_1.fill (grid0.coords t) d1 (iblk m c 1 t))
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (iblk m c 5 t)
            ∗ owns (c : Thread nD τ) (st0_6 t) fullShare
                (k0_pay1 (win0_0.fill (grid0.coords t) d0 (iblk m c 0 t)) (iblk m c 2 t) (iblk m c 3 t) (iblk m c 4 t) (iblk m c 5 t)
                  (win0_1.fill (grid0.coords t) d1 (iblk m c 1 t)))) -∗ K ⟨⟩))
      ⊢ wp frame (wpE (defs₀ (F := F)) 𝒱₀ c none) Set.univ (bodyAt0 t) K := by
  unfold bodyAt0
  exact sound_kernel (F := F) c (grid0.coords t) _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) K

/-- The library's body obligation with the result's window forgotten: the row and parameter windows leave as they came
    (which on the rows inside the arrays is their blocks), and of the result's buffer nothing is said. For every float
    instance. -/
theorem body_obligation_fgt (c : Dev nD) :
    BodyObligationLoose (dats m 0 c) (defs₀ (F := F)) 𝒱₀ () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩⟩
  rw [before0_0 m c t d0, before0_1 m c t d1, before0_2 m c t d2, before0_3 m c t d3, before0_4 m c t d4, before0_5 m c t d5]
  iapply (sound_body (F := F) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexists X6; iexact H6
  iintro ⟨H0, H1, H2, H3, H4, H5, H6⟩
  isplitl [HΦ]; · iexact HΦ
  isplitl [Ho]; · iexact Ho
  have hx : win0_0.cut (grid0.coords t) (xfull m c t) = iblk m c 0 t := win0_0.cut_fill _ _ _
  have hg : win0_1.cut (grid0.coords t) (gfull m c t) = iblk m c 1 t := win0_1.cut_fill _ _ _
  isplitl [H0]
  · iexists d0
    rw [after0_0 m c t]
    change _ ⊢ owns (c : Thread nD τ) (st0_0 t) fullShare (win0_0.fill (grid0.coords t) d0 (win0_0.cut (grid0.coords t) (xfull m c t)))
    rw [hx]; try iexact H0
  isplitl [H1]
  · iexists d1
    rw [after0_1 m c t]
    change _ ⊢ owns (c : Thread nD τ) (st0_1 t) fullShare (win0_1.fill (grid0.coords t) d1 (win0_1.cut (grid0.coords t) (gfull m c t)))
    rw [hg]; try iexact H1
  isplitl [H2]; · rw [after0_2 m c t]; iexact H2
  isplitl [H3]; · rw [after0_3 m c t]; iexact H3
  isplitl [H4]; · rw [after0_4 m c t]; iexact H4
  isplitl [H5]; · rw [after0_5 m c t]; iexact H5
  iexists _; iexact H6

end Cert.Proof.KI

end
-- ==== Proof.KI.Frame.lean ====
import proofs.«174815_j47614007443631_1_alg».proof.Proof.KI.Body
import Idealize.ShloMosaic.Lib.Pipeline.FrameSuffix

/-!
The frame of the program: every weakly fair execution terminates, faults nowhere, and leaves the eight argument
arrays as launched.

What the result's staging buffer holds on the rows inside the array is not named here: past the arrays' end the two row
windows hold words the machine picks, and at the bit level a matrix product is not read row by row. So the run is taken
over relational proof data with the result's window forgotten; the message array then holds some contents, which the
scatter after the region reads as data only (its indices are the destination argument's), and the frame follows.
-/

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F]

variable (m : (ℓ : Loc nD τ sig) → Buf (Elt F) ℓ) (ρ : Dev nD → PrngReg)

/-- The proof data read relationally, the result's window forgotten. -/
def rdat (c : Dev nD) : RDat τ (Elt F) Unit ℕ (UR sig nD τ) ℕ cfg0 c := (dats m 0 c).toRForget fgtOut

/-- The buffers the four host lines after the region write: the zero, its broadcast, the reshaped destination indices
    and the scattered sum. -/
abbrev tailWrites : Finset (Ref sig .tc) := {main_cst, main_v10, main_v11, main_v12}

/-- Each of those lines writes one of them. -/
theorem tail_writes_sub : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.unary_writes, StableHlo.ternary_writes, Finset.mem_singleton] at hb
    have hb' := Proc.devRef_injective (τ := τ) _ hb
    subst hb'
    decide

set_option backward.isDefEq.respectTransparency.types false in
/-- The run: from any memory with zero counters every weakly fair execution of the program terminates; every array of
    the pipeline ends at contents it may hold after the write-backs (an input at its entry contents) and every other
    unscoped buffer the later lines do not write at what the region found. -/
theorem run_frame : θ_run defs (onTc (τ := τ) (main (F := F))) (s₀ m ρ)
    (RDat.FramePostR cfg0 (rdat m) tailWrites (fun c b => V0 m c (Proc.devRef .tc b))) :=
  Pipeline.RDat.θ_run_frame_around_T cfgs (0 : Fin 1) launch0 defs₀ 𝒱₀ (rdat m) tailWrites m ρ main
    (hbody := fun c => (body_obligation_fgt m c).toRForget)
    (hshare := fun c => (dats m 0 c).share_full fun _ => rfl) (howed := fun _ _ => rfl)
    (V₀ := V0 m) (opss := [hostOps1]) (hsub := sfx_sub) (hfresh := sfx_fresh) (hkeep := sfx_keeps)
    (hT := tail_writes_sub) (hmain := hmain m 𝒱₀) (hA := fun _ _ => rfl) (hΦ := fun _ _ => rfl)

/-- THE FRAME, at any float instance: the three argument arrays the pipeline stages are inputs, never written; the five
    it does not stage bypass the region and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(RDat.FramePostR.arr_in (cfg₁ := cfg0) (rdat := rdat m) h c 0 rfl).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     (RDat.FramePostR.arr_in (cfg₁ := cfg0) (rdat := rdat m) h c 2 rfl).trans (V_main_arg4 m c),
     ((h c).2 main_arg5 (Finset.mem_sdiff.mpr ⟨Pipeline.mem_restRefs_of main_arg5 (by decide) (by decide), by decide⟩)).trans (V_main_arg5 m c),
     (RDat.FramePostR.arr_in (cfg₁ := cfg0) (rdat := rdat m) h c 4 rfl).trans (V_main_arg6 m c),
     ((h c).2 main_arg7 (Finset.mem_sdiff.mpr ⟨Pipeline.mem_restRefs_of main_arg7 (by decide) (by decide), by decide⟩)).trans (V_main_arg7 m c)⟩)
    (run_frame m ρ)

end Cert.Proof.KI

end
-- ==== Proof.KI.Arrays.lean ====
import proofs.«174815_j47614007443631_1_alg».proof.Proof.KI.Body
import Idealize.ShloMosaic.Lib.ValueIdx

/-!
The arrays of the idealized kernel's one region, each at its literal shape, on the extended reals: the edge features,
the gathered node rows, the two layers' weights and (as one-row matrices) biases as the region finds them, and the message
array as the region leaves it.
-/

noncomputable section

open scoped BigOperators

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable (m : (ℓ : Loc nD τ sig) → Buf (Elt Ideal) ℓ) (ρ : Dev nD → PrngReg)

/-- The edge features, the gathered node rows, the weights and the reshaped biases as the region finds them. -/
abbrev rbfA (c : Dev nD) : Vec Ideal S1600000x64 .f32 := V m c main_arg0
abbrev gatA (c : Dev nD) : Vec Ideal S1600000x64 .f32 := V m c main_v6
abbrev w1A (c : Dev nD) : Vec Ideal S64x64 .f32 := V m c main_arg4
abbrev b1A (c : Dev nD) : Vec Ideal S1x64 .f32 := V m c main_v7
abbrev w2A (c : Dev nD) : Vec Ideal S64x64 .f32 := V m c main_arg6
abbrev b2A (c : Dev nD) : Vec Ideal S1x64 .f32 := V m c main_v8
/-- The message array after the last write-back. -/
abbrev msgA (c : Dev nD) : Vec Ideal S1600000x64 .f32 := (dats (F := Ideal) m 0 c).arrAt 6 cfg0.N

end Cert.Proof.KI

end
-- ==== Proof.Spec.lean ====
import Idealize.ShloMosaic.PureOps.Ideal
import Idealize.ShloMosaic.Lib.ValueIdx

/-!
The message of one edge, on the extended reals.

For one edge with feature row `x` (64 numbers) and gathered node row entry `g`, both programs compute, at output
column `j`,

  g · ( Σ_k softplus( Σ_i x i · W1 i k + b1 k ) · W2 k j + b2 j ),

where `softplus a` is `a` when `a / 2 > 14` and `2 · log (1 + exp (min (a / 2) 14))` otherwise (a soft-plus of slope one
half, linear past the threshold).  The three literals are the binary values of `0.5`, `14` and `2`, kept as their words.
-/

noncomputable section

open scoped BigOperators

namespace Cert.Spec

open Idealize.ShloMosaic

/-- One half, fourteen and two, as the words both programs print. -/
abbrev cHalf : EReal := Ideal.ofBits .f32 0x3F000000#32
abbrev cThr : EReal := Ideal.ofBits .f32 0x41600000#32
abbrev cTwo : EReal := Ideal.ofBits .f32 0x40000000#32

/-- The soft-plus of slope one half with threshold fourteen: the identity where half the argument exceeds the
    threshold, else twice `log (1 + exp ·)` of half the argument capped at the threshold. -/
def softplus (a : EReal) : EReal :=
  Scalar.select (Ideal.cmp .ogt (cHalf * a) cThr) a (cTwo * Ideal.log1p (Ideal.exp (min (cHalf * a) cThr)))

/-- The hidden layer of one edge at hidden unit `k`: the soft-plus of the first affine map of the feature row. -/
def hidden (x : Fin 64 → EReal) (W1 : Fin 64 → Fin 64 → EReal) (b1 : Fin 64 → EReal) (k : Fin 64) : EReal :=
  softplus ((∑ i : Fin 64, x i * W1 i k) + b1 k)

/-- The message of one edge at output column `j`: the gathered entry times the second affine map of the hidden layer. -/
def edgeMsg (x : Fin 64 → EReal) (W1 : Fin 64 → Fin 64 → EReal) (b1 : Fin 64 → EReal) (W2 : Fin 64 → Fin 64 → EReal)
    (b2 : Fin 64 → EReal) (g : EReal) (j : Fin 64) : EReal :=
  g * ((∑ k : Fin 64, hidden x W1 b1 k * W2 k j) + b2 j)

end Cert.Spec

end
-- ==== Proof.KI.PayRow.lean ====
import proofs.«174815_j47614007443631_1_alg».proof.Proof.Gen.KernelIdeal.Skeleton
import proofs.«174815_j47614007443631_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
The body's one stored value, read at one element, on the extended reals.
-/

noncomputable section

open scoped BigOperators

namespace Cert.Proof.KI.PayRow

open Cert.KernelIdeal Cert.KernelIdeal.Gen
open Idealize.ShloMosaic Idealize.ShloMosaic.ValueIdx

/-! ## The product's operand indices

The product contracts the left operand's second axis with the right operand's first: at output index `i` and contraction
index `q` the left operand is read at `(i 0, q)` and the right at `(q, i 1)`. -/

theorem lhs_axis0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

theorem lhs_axis1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q

theorem rhs_axis0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q

theorem rhs_axis1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- A product into the zero accumulator, read at row `r` and column `j`, is the sum over the 64 contracted positions of
    the left operand's row `r` times the right operand's column `j`. -/
theorem matmul_zero_apply (A : FVec Ideal S4096x64 .bf16) (B : FVec Ideal S64x64 .bf16) (r : Fin 4096) (j : Fin 64) :
    matmul dot_S4096x64_S64x64_S4096x64_1_0_0_1_n_n none A B (constant (F := Ideal) S4096x64 .f32 0x00000000#32) (ix2 r j)
      = ∑ k : Fin 64, A (ix2 r k) * B (ix2 k j) := by
  show FloatOps.matmul dot_S4096x64_S64x64_S4096x64_1_0_0_1_n_n none A B (constant S4096x64 .f32 0x00000000#32) (ix2 r j) = _
  rw [Ideal.matmul_constant_zero_apply,
    ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r j)
      ((contrEquiv1 dot_S4096x64_S64x64_S4096x64_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S4096x64_S64x64_S4096x64_1_0_0_1_n_n.rhsIdx (ix2 r j)
      ((contrEquiv1 dot_S4096x64_S64x64_S4096x64_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-! ## The exponential and the logarithm, element by element -/

/-- The exponential of a vector is taken element by element. -/
theorem exp_at {s : Shape} {φ : FTy} (a : FVec Ideal s φ) (i : s.Idx) : Idealize.ShloMosaic.exp a i = Ideal.exp (a i) := rfl

/-- So is `log (1 + ·)`. -/
theorem log1p_at {s : Shape} {φ : FTy} (a : FVec Ideal s φ) (i : s.Idx) : Idealize.ShloMosaic.log1p a i = Ideal.log1p (a i) := rfl

/-! ## The stored value at one element -/

/-- Row `r`, column `j` of the stored block depends on row `r` of the two row blocks only: it is the edge message of that
    feature row and that gathered entry. -/
theorem pay_apply (v0 : Vec Ideal S4096x64 .f32) (v2 : Vec Ideal S64x64 .f32) (v5 : Vec Ideal S1x64 .f32)
    (v21 : Vec Ideal S64x64 .f32) (v24 : Vec Ideal S1x64 .f32) (v28 : Vec Ideal S4096x64 .f32) (r : Fin 4096) (j : Fin 64) :
    k0_pay1 (F := Ideal) v0 v2 v5 v21 v24 v28 (ix2 r j)
      = Cert.Spec.edgeMsg (fun i => v0 (ix2 r i)) (fun i k => v2 (ix2 i k)) (fun k => v5 (ix2 (0 : Fin 1) k))
          (fun k j' => v21 (ix2 k j')) (fun j' => v24 (ix2 (0 : Fin 1) j')) (v28 (ix2 r j)) j := by
  unfold k0_pay1
  -- The outer layer: the gathered entry times (second product + second bias row), the casts to their own shapes dropped.
  simp only [mulf_apply, addf_apply, shapeCast_self]
  -- The bias row is read at column `j`; the second product is a sum over the 64 hidden units.
  rw [broadcastTo_1b_ab_apply, matmul_zero_apply]
  unfold Cert.Spec.edgeMsg
  -- Both sides are now `g * (Σ_k · + b2 j)`: compare the sums term by term.
  refine congrArg (fun t => v28 (ix2 r j) * (t + v24 (ix2 (0 : Fin 1) j))) (Finset.sum_congr rfl fun k _ => ?_)
  -- The hidden unit `k` of row `r`: push the index through the selection, the comparison, the scalings, the
  -- logarithm, the exponential and the minimum, down to the first product (a sum over the 64 features) and its bias.
  rw [truncf_apply, truncf_apply, select_apply, cmpf_apply, mulf_apply, mulf_apply, addf_apply, log1p_at, exp_at,
    minimumf_apply, mulf_apply, addf_apply, broadcast_apply, broadcast_apply, broadcast_apply, broadcastTo_1b_ab_apply,
    matmul_zero_apply]
  -- On the extended reals the narrowing of the two operands is the identity; what is left is the soft-plus of the first
  -- affine map at hidden unit `k` times the second weight, with the three literals read as the same words.
  simp only [truncf_apply]
  rfl

end Cert.Proof.KI.PayRow

end
-- ==== Proof.KI.Exact.lean ====
import proofs.«174815_j47614007443631_1_alg».proof.Proof.KI.Arrays
import proofs.«174815_j47614007443631_1_alg».proof.Proof.KI.PayRow
import Idealize.ShloMosaic.Lib.Pipeline.FrameSuffix

/-!
On the extended reals the stored block IS named on the rows inside the array: a row of the block depends on the same row
of the two row blocks only, so what the machine left past the arrays' end in the staging buffers does not reach it. The
body obligation then holds with every window stated, and the run names the message array.
-/

noncomputable section

open scoped BigOperators

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable (m : (ℓ : Loc nD τ sig) → Buf (Elt Ideal) ℓ) (ρ : Dev nD → PrngReg)

/-! ## A row of the stored block reads its own row only -/

/-- The stored block at row `r`, column `j` is the same for two feature blocks that agree on row `r` and two gathered
    blocks that agree at `(r, j)`: the edge message of a row reads nothing else of them. -/
theorem pay_row_congr (x x' g g' : Vec Ideal S4096x64 .f32) (W1 : Vec Ideal S64x64 .f32) (b1 : Vec Ideal S1x64 .f32)
    (W2 : Vec Ideal S64x64 .f32) (b2 : Vec Ideal S1x64 .f32) (r : Fin 4096) (j : Fin 64)
    (hx : ∀ k : Fin 64, x (ix2 r k) = x' (ix2 r k)) (hg : g (ix2 r j) = g' (ix2 r j)) :
    k0_pay1 (F := Ideal) x W1 b1 W2 b2 g (ix2 r j) = k0_pay1 (F := Ideal) x' W1 b1 W2 b2 g' (ix2 r j) := by
  rw [PayRow.pay_apply, PayRow.pay_apply, hg, show (fun i => x (ix2 r i)) = fun i => x' (ix2 r i) from funext hx]

/-- On an index the transfer moves, a filled-out block does not depend on what it was filled out with. -/
theorem fill_moved_indep {α : Type} (w : Window sig grid0) (i : grid0.Coords) (d d' : w.block.Idx → α)
    (g : (w.xblock i).Idx → α) (j : w.block.Idx) (h : w.moved i j = true) : w.fill i d g j = w.fill i d' g j := by
  unfold Window.fill; rw [dif_pos h, dif_pos h]

/-- The three windows along the edge axis are cut alike: the rows their transfers move at a point are the same. -/
theorem xsize_0_6 (i : grid0.Coords) : win0_0.xsize i = win0_6.xsize i := rfl
theorem xsize_1_6 (i : grid0.Coords) : win0_1.xsize i = win0_6.xsize i := rfl
/-- No window is cut along the columns. -/
theorem xsize_6_col (i : grid0.Coords) : win0_6.xsize i 1 = 64 := rfl

/-- A row the result's transfer moves is moved whole by the feature window's transfer, -/
theorem moved_0 (i : grid0.Coords) (r : Fin 4096) (k : Fin 64) (hr : r.val < win0_6.xsize i 0) :
    win0_0.moved i (ix2 r k) = true :=
  (win0_0.moved_iff i (ix2 r k)).mpr fun a => by
    match a with
    | ⟨0, _⟩ => exact hr
    | ⟨1, _⟩ => exact k.isLt
/-- and by the gathered window's. -/
theorem moved_1 (i : grid0.Coords) (r : Fin 4096) (k : Fin 64) (hr : r.val < win0_6.xsize i 0) :
    win0_1.moved i (ix2 r k) = true :=
  (win0_1.moved_iff i (ix2 r k)).mpr fun a => by
    match a with
    | ⟨0, _⟩ => exact hr
    | ⟨1, _⟩ => exact k.isLt

/-- On the rows the result's transfer moves, the stored block is the message block whatever filled the two row blocks out
    past the arrays' end. -/
theorem row_local (c : Dev nD) (t : Fin cfg0.N) (d0 d1 : S4096x64.Idx → Elt Ideal .f32) :
    win0_6.cut (grid0.coords t)
        (k0_pay1 (F := Ideal) (win0_0.fill (grid0.coords t) d0 (iblk m c 0 t)) (iblk m c 2 t) (iblk m c 3 t) (iblk m c 4 t)
          (iblk m c 5 t) (win0_1.fill (grid0.coords t) d1 (iblk m c 1 t)))
      = win0_6.cut (grid0.coords t) (ofull m c t) := by
  funext y
  -- The moved index `y` as row `r` (inside the cut) and column `j` of the whole block.
  have hr : (y 0).val < win0_6.xsize (grid0.coords t) 0 := (y 0).isLt
  have hr' : (y 0).val < 4096 := Nat.lt_of_lt_of_le hr (win0_6.xsize_le (grid0.coords t) 0)
  have hj : (y 1).val < 64 := (y 1).isLt
  have hy : win0_6.xinj (grid0.coords t) y = ix2 (⟨(y 0).val, hr'⟩ : Fin 4096) (⟨(y 1).val, hj⟩ : Fin 64) :=
    funext fun a => by
      match a with
      | ⟨0, _⟩ => rfl
      | ⟨1, _⟩ => rfl
  show k0_pay1 (F := Ideal) _ _ _ _ _ _ (win0_6.xinj (grid0.coords t) y) = ofull m c t (win0_6.xinj (grid0.coords t) y)
  rw [hy]
  unfold ofull xfull gfull
  exact pay_row_congr _ _ _ _ _ _ _ _ _ _
    (fun k => fill_moved_indep win0_0 _ _ _ _ _ (moved_0 _ _ k hr))
    (fill_moved_indep win0_1 _ _ _ _ _ (moved_1 _ _ _ hr))

/-- The body obligation with nothing forgotten: on the rows inside the array the result's buffer holds the message block,
    whatever fills the row blocks past the arrays' end. -/
theorem body_obligation (c : Dev nD) :
    BodyObligationLoose (dats (F := Ideal) m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5,
    before0_6 m c t d6]
  iapply (sound_body (F := Ideal) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iintro ⟨H0, H1, H2, H3, H4, H5, H6⟩
  isplitl [HΦ]; · iexact HΦ
  isplitl [Ho]; · iexact Ho
  have hx : win0_0.cut (grid0.coords t) (xfull m c t) = iblk m c 0 t := win0_0.cut_fill _ _ _
  have hg : win0_1.cut (grid0.coords t) (gfull m c t) = iblk m c 1 t := win0_1.cut_fill _ _ _
  isplitl [H0]
  · iexists d0
    rw [after0_0 m c t]
    change _ ⊢ owns (c : Thread nD τ) (st0_0 t) fullShare (win0_0.fill (grid0.coords t) d0 (win0_0.cut (grid0.coords t) (xfull m c t)))
    rw [hx]; try iexact H0
  isplitl [H1]
  · iexists d1
    rw [after0_1 m c t]
    change _ ⊢ owns (c : Thread nD τ) (st0_1 t) fullShare (win0_1.fill (grid0.coords t) d1 (win0_1.cut (grid0.coords t) (gfull m c t)))
    rw [hg]; try iexact H1
  isplitl [H2]; · rw [after0_2 m c t]; iexact H2
  isplitl [H3]; · rw [after0_3 m c t]; iexact H3
  isplitl [H4]; · rw [after0_4 m c t]; iexact H4
  isplitl [H5]; · rw [after0_5 m c t]; iexact H5
  -- The result's window: the buffer holds the stored block of what the two row buffers held; on the rows its transfer moves
  -- that is the message block, so filling the buffer's own contents with the message block's moved part changes nothing.
  iexists (k0_pay1 (F := Ideal) (win0_0.fill (grid0.coords t) d0 (iblk m c 0 t)) (iblk m c 2 t) (iblk m c 3 t) (iblk m c 4 t)
    (iblk m c 5 t) (win0_1.fill (grid0.coords t) d1 (iblk m c 1 t)))
  rw [after0_6 m c t]
  change _ ⊢ owns (c : Thread nD τ) (st0_6 t) fullShare
    (win0_6.fill (grid0.coords t)
      (k0_pay1 (F := Ideal) (win0_0.fill (grid0.coords t) d0 (iblk m c 0 t)) (iblk m c 2 t) (iblk m c 3 t) (iblk m c 4 t)
        (iblk m c 5 t) (win0_1.fill (grid0.coords t) d1 (iblk m c 1 t)))
      (win0_6.cut (grid0.coords t) (ofull m c t)))
  rw [win0_6.fill_congr_cut (grid0.coords t) (row_local m c t d0 d1)]; try iexact H6

set_option backward.isDefEq.respectTransparency.types false in
/-- The run with the arrays named: every weakly fair execution terminates, every array of the pipeline ends at what the
    proof data compute, every other unscoped buffer at what the lines after the region make of the region's exit. -/
theorem run_main : θ_run defs (onTc (τ := τ) (main (F := Ideal))) (s₀ m ρ)
    (Pipeline.FramePost cfgs (dats (F := Ideal) m) 0 (Pipeline.afterTail₀ cfgs (dats (F := Ideal) m) 0 (V0 m) [hostOps1])) :=
  Pipeline.θ_run_frame_around cfgs (dats (F := Ideal) m) (0 : Fin 1) launch0 defs₀ 𝒱₀ m ρ main
    (hbody := fun c => body_obligation m c)
    (hshare := fun c => (dats (F := Ideal) m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

end Cert.Proof.KI

end
-- ==== Proof.KI.MsgArray.lean ====
import proofs.«174815_j47614007443631_1_alg».proof.Proof.KI.Arrays
import proofs.«174815_j47614007443631_1_alg».proof.Proof.KI.PayRow
import Idealize.ShloMosaic.Lib.Pipeline.Value

/-!
The message array after the region, element by element: edge `e` lies in block `e / 4096` at row `e % 4096`; every point
writes back the rows of its block that lie inside the array (all 4096, or 2560 at the last point), and those rows are the
edge messages of the corresponding rows of the feature and gathered arrays.
-/

noncomputable section

open scoped BigOperators

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable (m : (ℓ : Loc nD τ sig) → Buf (Elt Ideal) ℓ) (ρ : Dev nD → PrngReg)

/-! ## The index maps and the cuts, decided over the grid -/

/-- At point `t` each of the three row windows sits at block index `(t, 0)`. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

/-- No block is cut along the columns. -/
theorem xcols : ∀ t : Fin cfg0.N, win0_6.xsize (grid0.coords t) 1 = 64 :=
  (by decide +kernel : ∀ t : Fin grid0.N, win0_6.xsize (grid0.coords t) 1 = 64)

/-- Along the rows a block that ends inside the array is whole, and the last one is cut at the array's end. -/
theorem xrows : ∀ t : Fin cfg0.N, win0_6.xsize (grid0.coords t) 0
    = if (t.val + 1) * 4096 ≤ 1600000 then 4096 else 1600000 - t.val * 4096 :=
  (by decide +kernel : ∀ t : Fin grid0.N, win0_6.xsize (grid0.coords t) 0
    = if (t.val + 1) * 4096 ≤ 1600000 then 4096 else 1600000 - t.val * 4096)

/-! ## The blocks the body reads, as parts of the arrays -/

/-- Each parameter window's one block, at block index `(0, 0)` and of the array's own shape, is the whole array. -/
theorem iblk2_eq (c : Dev nD) (t : Fin cfg0.N) : iblk m c 2 t = w1A m c := by
  have hz : (fun a => (win0_2.index t) a * main_arg4.ty.shape.size a) = fun _ => 0 := funext fun a => by fin_cases a <;> rfl
  exact Memref.read_access_unit_zero (Elt Ideal) main_arg4 hz _ _
theorem iblk3_eq (c : Dev nD) (t : Fin cfg0.N) : iblk m c 3 t = b1A m c := by
  have hz : (fun a => (win0_3.index t) a * main_v7.ty.shape.size a) = fun _ => 0 := funext fun a => by fin_cases a <;> rfl
  exact Memref.read_access_unit_zero (Elt Ideal) main_v7 hz _ _
theorem iblk4_eq (c : Dev nD) (t : Fin cfg0.N) : iblk m c 4 t = w2A m c := by
  have hz : (fun a => (win0_4.index t) a * main_arg6.ty.shape.size a) = fun _ => 0 := funext fun a => by fin_cases a <;> rfl
  exact Memref.read_access_unit_zero (Elt Ideal) main_arg6 hz _ _
theorem iblk5_eq (c : Dev nD) (t : Fin cfg0.N) : iblk m c 5 t = b2A m c := by
  have hz : (fun a => (win0_5.index t) a * main_v8.ty.shape.size a) = fun _ => 0 := funext fun a => by fin_cases a <;> rfl
  exact Memref.read_access_unit_zero (Elt Ideal) main_v8 hz _ _

/-- Row `r` of the feature block at point `t`, when it lies inside the array, is row `t · 4096 + r` of the feature array:
    the row is among those the fetch moves, and an element of a block sits in the array at block index times block size plus
    its coordinate inside the block. -/
theorem xfull_row (c : Dev nD) (t : Fin cfg0.N) (r : Fin 4096) (k : Fin 64)
    (hr : r.val < win0_0.xsize (grid0.coords t) 0) (e : Fin 1600000) (he : e.val = t.val * 4096 + r.val) :
    xfull m c t (ix2 r k) = rbfA m c (ix2 e k) := by
  unfold xfull
  have hk : k.val < win0_0.xsize (grid0.coords t) 1 := by
    show k.val < win0_6.xsize (grid0.coords t) 1
    rw [xcols t]; exact k.isLt
  let y0 : (win0_0.xblock (grid0.coords t)).Idx := fun a => match a with | ⟨0, _⟩ => ⟨r.val, hr⟩ | ⟨1, _⟩ => ⟨k.val, hk⟩
  have e0 : ix2 r k = win0_0.xinj (grid0.coords t) y0 :=
    funext fun a => Fin.ext (by match a with | ⟨0, _⟩ => rfl | ⟨1, _⟩ => rfl)
  rw [e0, win0_0.fill_xinj]
  unfold iblk
  show V m c main_arg0 (((cfg0.win 0).blk t).view.emb y0) = V m c main_arg0 (ix2 e k)
  refine congrArg _ (funext fun a => Fin.ext ?_)
  obtain ⟨i0, i1⟩ := idx0 t
  match a with
  | ⟨0, _⟩ => show win0_0.index t (0 : Fin 2) * 4096 + 1 * r.val = e.val; omega
  | ⟨1, _⟩ => show win0_0.index t (1 : Fin 2) * 64 + 1 * k.val = k.val; omega

/-- The same for the gathered block and the gathered array. -/
theorem gfull_row (c : Dev nD) (t : Fin cfg0.N) (r : Fin 4096) (k : Fin 64)
    (hr : r.val < win0_1.xsize (grid0.coords t) 0) (e : Fin 1600000) (he : e.val = t.val * 4096 + r.val) :
    gfull m c t (ix2 r k) = gatA m c (ix2 e k) := by
  unfold gfull
  have hk : k.val < win0_1.xsize (grid0.coords t) 1 := by
    show k.val < win0_6.xsize (grid0.coords t) 1
    rw [xcols t]; exact k.isLt
  let y0 : (win0_1.xblock (grid0.coords t)).Idx := fun a => match a with | ⟨0, _⟩ => ⟨r.val, hr⟩ | ⟨1, _⟩ => ⟨k.val, hk⟩
  have e0 : ix2 r k = win0_1.xinj (grid0.coords t) y0 :=
    funext fun a => Fin.ext (by match a with | ⟨0, _⟩ => rfl | ⟨1, _⟩ => rfl)
  rw [e0, win0_1.fill_xinj]
  unfold iblk
  show V m c main_v6 (((cfg0.win 1).blk t).view.emb y0) = V m c main_v6 (ix2 e k)
  refine congrArg _ (funext fun a => Fin.ext ?_)
  obtain ⟨i0, i1⟩ := idx1 t
  match a with
  | ⟨0, _⟩ => show win0_1.index t (0 : Fin 2) * 4096 + 1 * r.val = e.val; omega
  | ⟨1, _⟩ => show win0_1.index t (1 : Fin 2) * 64 + 1 * k.val = k.val; omega

/-! ## The message array as one function of the arrays -/

/-- Element `i` of the message array: the message of the edge of `i`'s row, at `i`'s column. -/
def msgG (c : Dev nD) : Vec Ideal S1600000x64 .f32 := fun i =>
  Cert.Spec.edgeMsg (fun k => rbfA m c (ix2 (⟨(i 0).val, idx2_lt0 i⟩ : Fin 1600000) k)) (fun i' k => w1A m c (ix2 i' k))
    (fun k => b1A m c (ix2 (0 : Fin 1) k)) (fun k j' => w2A m c (ix2 k j')) (fun j' => b2A m c (ix2 (0 : Fin 1) j'))
    (gatA m c i) (⟨(i 1).val, idx2_lt1 i⟩ : Fin 64)

/-- The same, at an index whose coordinates are known as `e` and `j`. -/
theorem msgG_eq (c : Dev nD) (i : S1600000x64.Idx) (e : Fin 1600000) (j : Fin 64) (he : (i 0).val = e.val) (hj : (i 1).val = j.val) :
    msgG m c i
      = Cert.Spec.edgeMsg (fun k => rbfA m c (ix2 e k)) (fun i' k => w1A m c (ix2 i' k)) (fun k => b1A m c (ix2 (0 : Fin 1) k))
          (fun k j' => w2A m c (ix2 k j')) (fun j' => b2A m c (ix2 (0 : Fin 1) j')) (gatA m c (ix2 e j)) j := by
  have h : i = ix2 e j := funext fun a => Fin.ext (by match a with | ⟨0, _⟩ => exact he | ⟨1, _⟩ => exact hj)
  subst h; rfl

/-- The stored block at row `r`, column `j`, when row `r` of the two row blocks is row `e` of two arrays: the message of
    that row of the arrays, whatever the other rows of the blocks hold. -/
theorem pay_row (x0 g0 : Vec Ideal S4096x64 .f32) (p2 : Vec Ideal S64x64 .f32) (p3 : Vec Ideal S1x64 .f32)
    (p4 : Vec Ideal S64x64 .f32) (p5 : Vec Ideal S1x64 .f32) (X Gt : Vec Ideal S1600000x64 .f32)
    (r : Fin 4096) (j : Fin 64) (e : Fin 1600000)
    (hx : ∀ k, x0 (ix2 r k) = X (ix2 e k)) (hg : g0 (ix2 r j) = Gt (ix2 e j)) :
    k0_pay1 (F := Ideal) x0 p2 p3 p4 p5 g0 (ix2 r j)
      = Cert.Spec.edgeMsg (fun k => X (ix2 e k)) (fun i k => p2 (ix2 i k)) (fun k => p3 (ix2 (0 : Fin 1) k))
          (fun k j' => p4 (ix2 k j')) (fun j' => p5 (ix2 (0 : Fin 1) j')) (Gt (ix2 e j)) j := by
  rw [PayRow.pay_apply, hg, show (fun i => x0 (ix2 r i)) = fun k => X (ix2 e k) from funext hx]

/-- What point `t` writes back — the rows of the stored block that lie inside the array — is its block of `msgG`: row
    `y 0` of the cut block is a row inside the array, so that row of both row blocks was fetched, from row
    `t · 4096 + y 0` of the arrays, and the stored block's row depends on nothing else of them. -/
theorem flushed_eq (c : Dev nD) (t : Fin cfg0.N) :
    (dats (F := Ideal) m 0 c).flushed 6 t = ((cfg0.win 6).blk t).view.read (Elt Ideal) (msgG m c) := by
  show (cfg0.win 6).cut (grid0.coords t) ((dats (F := Ideal) m 0 c).after 6 t) = _
  rw [after0_6]
  funext y
  have hy0 : (y 0).val < win0_6.xsize (grid0.coords t) 0 := (y 0).isLt
  have hy1 : (y 1).val < win0_6.xsize (grid0.coords t) 1 := (y 1).isLt
  have h0 : (y 0).val < 4096 := lt_of_lt_of_le hy0 (win0_6.xsize_le _ 0)
  have h1 : (y 1).val < 64 := lt_of_lt_of_le hy1 (win0_6.xsize_le _ 1)
  have hxr := xrows t
  have hE : t.val * 4096 + (y 0).val < 1600000 := by
    rw [hxr] at hy0; split at hy0 <;> omega
  show ofull m c t (win0_6.xinj (grid0.coords t) y) = msgG m c (((cfg0.win 6).blk t).view.emb y)
  have e : win0_6.xinj (grid0.coords t) y = ix2 (⟨(y 0).val, h0⟩ : Fin 4096) (⟨(y 1).val, h1⟩ : Fin 64) :=
    funext fun a => Fin.ext (by match a with | ⟨0, _⟩ => rfl | ⟨1, _⟩ => rfl)
  obtain ⟨i0, i1⟩ := idx6 t
  rw [e, msgG_eq m c _ ⟨t.val * 4096 + (y 0).val, hE⟩ ⟨(y 1).val, h1⟩
    (show win0_6.index t (0 : Fin 2) * 4096 + 1 * (y 0).val = t.val * 4096 + (y 0).val by omega)
    (show win0_6.index t (1 : Fin 2) * 64 + 1 * (y 1).val = (y 1).val by omega)]
  unfold ofull
  rw [← iblk2_eq m c t, ← iblk3_eq m c t, ← iblk4_eq m c t, ← iblk5_eq m c t]
  exact pay_row (xfull m c t) (gfull m c t) (iblk m c 2 t) (iblk m c 3 t) (iblk m c 4 t) (iblk m c 5 t) (rbfA m c) (gatA m c)
    ⟨(y 0).val, h0⟩ ⟨(y 1).val, h1⟩ ⟨t.val * 4096 + (y 0).val, hE⟩
    (fun k => xfull_row m c t _ k hy0 _ rfl) (gfull_row m c t _ _ hy0 _ rfl)

/-! ## Every row is written back -/

/-- Row `i 0` lies in the block of point `i 0 / 4096`, in its part inside the array: `i 0 = (i 0 / 4096) · 4096 + i 0 % 4096`
    with `i 0 % 4096 < 4096`, and at the last point `i 0 < 1600000` is the cut itself. -/
theorem cover (i : S1600000x64.Idx) :
    ∃ t : Fin cfg0.N, (cfg0.win 6).flush t = true ∧ i ∈ ((cfg0.win 6).blk t).view.set := by
  have hi0 : (i 0).val < 1600000 := idx2_lt0 i
  have hi1 : (i 1).val < 64 := idx2_lt1 i
  have hq : (i 0).val / 4096 < cfg0.N := by
    show (i 0).val / 4096 < 391
    omega
  have hdm := Nat.div_add_mod (i 0).val 4096
  have hml := Nat.mod_lt (i 0).val (show 0 < 4096 by omega)
  refine ⟨⟨(i 0).val / 4096, hq⟩, flush0_6 _, ?_⟩
  show i ∈ ((View.whole main_v9).slice (win0_6.rect ⟨(i 0).val / 4096, hq⟩)).set
  rw [View.set_slice_whole, Rect.mem_set_unit]
  obtain ⟨i0, i1⟩ := idx6 ⟨(i 0).val / 4096, hq⟩
  have hx0 := xrows ⟨(i 0).val / 4096, hq⟩
  have hx1 := xcols ⟨(i 0).val / 4096, hq⟩
  intro a
  match a with
  | ⟨0, _⟩ =>
    show win0_6.index ⟨(i 0).val / 4096, hq⟩ (0 : Fin 2) * 4096 ≤ (i 0).val
      ∧ (i 0).val < win0_6.index ⟨(i 0).val / 4096, hq⟩ (0 : Fin 2) * 4096 + win0_6.xsize (grid0.coords ⟨(i 0).val / 4096, hq⟩) 0
    rw [i0, hx0]
    show (i 0).val / 4096 * 4096 ≤ (i 0).val ∧ (i 0).val < (i 0).val / 4096 * 4096
      + (if ((i 0).val / 4096 + 1) * 4096 ≤ 1600000 then 4096 else 1600000 - (i 0).val / 4096 * 4096)
    split <;> omega
  | ⟨1, _⟩ =>
    show win0_6.index ⟨(i 0).val / 4096, hq⟩ (1 : Fin 2) * 64 ≤ (i 1).val
      ∧ (i 1).val < win0_6.index ⟨(i 0).val / 4096, hq⟩ (1 : Fin 2) * 64 + win0_6.xsize (grid0.coords ⟨(i 0).val / 4096, hq⟩) 1
    rw [i1, hx1]; omega

/-- So the message array after the last write-back is `msgG`. -/
theorem msgA_eq (c : Dev nD) : msgA m c = msgG m c :=
  (dats (F := Ideal) m 0 c).arrAt_eq_of_cover 6 (msgG m c) (fun t _ => flushed_eq m c t) cover

/-- Element `(e, j)` of the message array is the message of edge `e` at column `j`. -/
theorem msg_array_apply (c : Dev nD) (e : Fin 1600000) (j : Fin 64) :
    msgA m c (ix2 e j)
      = Cert.Spec.edgeMsg (fun i => rbfA m c (ix2 e i)) (fun i k => w1A m c (ix2 i k)) (fun k => b1A m c (ix2 (0 : Fin 1) k))
          (fun k j' => w2A m c (ix2 k j')) (fun j' => b2A m c (ix2 (0 : Fin 1) j')) (gatA m c (ix2 e j)) j := by
  rw [msgA_eq m c]
  exact msgG_eq m c (ix2 e j) e j rfl rfl

end Cert.Proof.KI

end
-- ==== Proof.KI.Host.lean ====
import proofs.«174815_j47614007443631_1_alg».proof.Proof.KI.Arrays
import Idealize.ShloMosaic.Lib.StableHlo.Run
import Idealize.ShloMosaic.Lib.Pipeline.FrameSuffix
import Idealize.ShloMosaic.Lib.Pipeline.Value
import Idealize.ShloMosaic.Lib.ValueLayout

/-!
The host lines around the region, as values: before it the node rows are gathered at the source indices (a negative index
wrapped once by the node count) and the two biases are reshaped to one-row matrices; after it the message array is
scatter-added into zeros at the destination indices.
-/

noncomputable section

open scoped BigOperators

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable (m : (ℓ : Loc nD τ sig) → Buf (Elt Ideal) ℓ) (ρ : Dev nD → PrngReg)

/-- The gathered rows the region finds: the gather of the node features at the wrapped source indices. -/
theorem gat_eq (c : Dev nD) :
    gatA m c = Host.gather gather_S100000x64_S1600000x1_S1600000x64_1_0_n_n_0_1_164 (m ((c.tc : Thread nD τ).loc main_arg1))
      (broadcastInDim S1600000x1 ![0] bcast_S1600000_S1600000x1_0
        (select (cmpi .slt (m ((c.tc : Thread nD τ).loc main_arg2)) (broadcastInDim S1600000 ![] bcast_S_S1600000 (constantI S_ 32 0#32)))
          (addi (m ((c.tc : Thread nD τ).loc main_arg2)) (broadcastInDim S1600000 ![] bcast_S_S1600000 (constantI S_ 32 100000#32)))
          (m ((c.tc : Thread nD τ).loc main_arg2)))) := by
  -- the contents of the gather's result buffer after the lines before the region: each line's value at its operands
  show StableHlo.after hostOps0 (fun b => m (c, b)) (Proc.devRef .tc main_v6) = _
  after_results

/-- The edge features and the weights are arguments no line before the region writes. -/
theorem rbf_eq (c : Dev nD) : rbfA m c = m ((c.tc : Thread nD τ).loc main_arg0) := V_main_arg0 m c
theorem w1_eq (c : Dev nD) : w1A m c = m ((c.tc : Thread nD τ).loc main_arg4) := V_main_arg4 m c
theorem w2_eq (c : Dev nD) : w2A m c = m ((c.tc : Thread nD τ).loc main_arg6) := V_main_arg6 m c

/-- The one-row bias matrices read the bias vectors. -/
theorem b1_apply (c : Dev nD) (k : Fin 64) :
    b1A m c (ix2 (0 : Fin 1) k) = (m ((c.tc : Thread nD τ).loc main_arg5) : Vec Ideal S64 .f32) (ix1 k) := by
  -- the one-row matrix is the bias vector recast to shape [1, 64]; the cast reads entry (0, k) at k
  have e : (b1A m c : Vec Ideal S1x64 .f32)
      = shapeCast S1x64 (m ((c.tc : Thread nD τ).loc main_arg5) : Vec Ideal S64 .f32) shapeCasts_S64_S1x64 := by
    show StableHlo.after hostOps0 (fun b => m (c, b)) (Proc.devRef .tc main_v7) = _
    after_results
    rfl
  rw [e]
  exact shapeCast_a_1a_apply _ _ _ _
theorem b2_apply (c : Dev nD) (k : Fin 64) :
    b2A m c (ix2 (0 : Fin 1) k) = (m ((c.tc : Thread nD τ).loc main_arg7) : Vec Ideal S64 .f32) (ix1 k) := by
  -- likewise for the second bias
  have e : (b2A m c : Vec Ideal S1x64 .f32)
      = shapeCast S1x64 (m ((c.tc : Thread nD τ).loc main_arg7) : Vec Ideal S64 .f32) shapeCasts_S64_S1x64 := by
    show StableHlo.after hostOps0 (fun b => m (c, b)) (Proc.devRef .tc main_v8) = _
    after_results
    rfl
  rw [e]
  exact shapeCast_a_1a_apply _ _ _ _

/-- The program's result after the lines that follow the region: the message array scatter-added into zeros at the
    destination indices. -/
theorem result_eq (c : Dev nD) :
    Pipeline.afterTail₀ cfgs (dats (F := Ideal) m) 0 (V0 m) [hostOps1] c main_v12
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (m ((c.tc : Thread nD τ).loc main_arg3)))
          (msgA m c) := by
  unfold Pipeline.afterTail₀
  show StableHlo.after hostOps1 _ (Proc.devRef .tc main_v12) = _
  after_results
  -- at the region's exit the destination indices are an argument neither the region nor a line wrote, and the
  -- scattered operand is the array of the region's result window as the region leaves it
  have h3 : Pipeline.withArrays (cfgs 0).spec c (V0 m c) (fun w => (dats (F := Ideal) m 0 c).arrAt w (cfgs 0).N)
      (Proc.devRef .tc main_arg3) = m ((c.tc : Thread nD τ).loc main_arg3) :=
    (Pipeline.withArrays_of_ne _ c (V0 m c) _ main_arg3
      (by exact (by decide : ∀ w, Pipeline.arrRef spec0 w ≠ main_arg3))).trans (V_main_arg3 m c)
  have h9 : Pipeline.withArrays (cfgs 0).spec c (V0 m c) (fun w => (dats (F := Ideal) m 0 c).arrAt w (cfgs 0).N)
      (Proc.devRef .tc main_v9) = msgA m c :=
    Pipeline.withArrays_arr spec0 launch0.win.arr_inj c _ _ 6
  rw [h3, h9]

end Cert.Proof.KI

end
-- ==== Proof.RefRow.lean ====
import proofs.«174815_j47614007443631_1_alg».proof.Proof.Gen.ReferenceIdeal.Read
import proofs.«174815_j47614007443631_1_alg».proof.Proof.Spec
import Idealize.ShloMosaic.Lib.ValueIdx
import Idealize.ShloMosaic.Lib.Pipeline.Value
import Idealize.ShloMosaic.PureOps.Ideal.Laws

/-!
The reference's message array, read at one element, on the extended reals.

The reference computes the message array stage by stage on whole arrays.  Reading each stage at the index `(e, j)`
unfolds the array operations into scalar ones: the two contractions become sums over the 64 hidden units, the
broadcasts of the bias rows read the bias at the column, and the element-wise stages apply their scalar operation.  The
result is, term for term, the edge message of the specification.
-/

noncomputable section

open scoped BigOperators

namespace Cert.Proof.RefRow

open Cert.ReferenceIdeal Cert.ReferenceIdeal.Gen Cert.ReferenceIdeal.Read
open Idealize.ShloMosaic Idealize.ShloMosaic.ValueIdx

/-! ### Index equations: the index maps of the layout stages at `(e, k)` are the coordinate constructors. -/

/-- The left operand of the first contraction at output `(e, k)`, summand `i`, is read at `(e, i)`. -/
theorem lidx0 (e : Fin 1600000) (k i : Fin 64) : lidx_main_v0 (ix2 e k) i = ix2 e i :=
  funext fun a => Fin.ext (by match a with | ⟨0, _⟩ => rfl | ⟨1, _⟩ => rfl)

/-- The right operand of the first contraction at output `(e, k)`, summand `i`, is read at `(i, k)`. -/
theorem ridx0 (e : Fin 1600000) (k i : Fin 64) : ridx_main_v0 (ix2 e k) i = ix2 i k :=
  funext fun a => Fin.ext (by match a with | ⟨0, _⟩ => rfl | ⟨1, _⟩ => rfl)

/-- The left operand of the second contraction at output `(e, j)`, summand `k`, is read at `(e, k)`. -/
theorem lidx15 (e : Fin 1600000) (j k : Fin 64) : lidx_main_v15 (ix2 e j) k = ix2 e k :=
  funext fun a => Fin.ext (by match a with | ⟨0, _⟩ => rfl | ⟨1, _⟩ => rfl)

/-- The right operand of the second contraction at output `(e, j)`, summand `k`, is read at `(k, j)`. -/
theorem ridx15 (e : Fin 1600000) (j k : Fin 64) : ridx_main_v15 (ix2 e j) k = ix2 k j :=
  funext fun a => Fin.ext (by match a with | ⟨0, _⟩ => rfl | ⟨1, _⟩ => rfl)

/-- The first bias row, broadcast to the message shape, is read at the column. -/
theorem bidx1 (e : Fin 1600000) (k : Fin 64) : idx_main_v1 (idx_main_v2 (ix2 e k)) = ix1 k :=
  funext fun a => Fin.ext (by match a with | ⟨0, _⟩ => rfl)

/-- The second bias row, broadcast to the message shape, is read at the column. -/
theorem bidx16 (e : Fin 1600000) (j : Fin 64) : idx_main_v16 (idx_main_v17 (ix2 e j)) = ix1 j :=
  funext fun a => Fin.ext (by match a with | ⟨0, _⟩ => rfl)

/-! ### The stages at an element -/

/-- The first affine map at `(e, k)`: the contraction of feature row `e` with column `k` of the first weight, plus
    the first bias at `k`. -/
theorem pre_apply (x0 : (⟨S1600000x64, .f32⟩ : BufTy).Contents (Elt Ideal))
    (x4 : (⟨S64x64, .f32⟩ : BufTy).Contents (Elt Ideal)) (x5 : (⟨S64, .f32⟩ : BufTy).Contents (Elt Ideal))
    (e : Fin 1600000) (k : Fin 64) :
    val_main_v3 (F := Ideal) x0 x4 x5 (ix2 e k)
      = (∑ i : Fin 64, x0 (ix2 e i) * x4 (ix2 i k)) + x5 (ix1 k) := by
  rw [val_main_v3_apply, val_main_v0_apply, val_main_v2_apply, val_main_v1_apply, bidx1, Ideal.addf_def]
  simp only [lidx0, ridx0]

/-- The hidden layer at `(e, k)`: the select between the affine value and twice `log (1 + exp ·)` of its capped half
    is the soft-plus of the specification. -/
theorem hidden_apply (x0 : (⟨S1600000x64, .f32⟩ : BufTy).Contents (Elt Ideal))
    (x4 : (⟨S64x64, .f32⟩ : BufTy).Contents (Elt Ideal)) (x5 : (⟨S64, .f32⟩ : BufTy).Contents (Elt Ideal))
    (e : Fin 1600000) (k : Fin 64) :
    val_main_v14 (F := Ideal) x0 x4 x5 (ix2 e k)
      = Cert.Spec.hidden (fun i => x0 (ix2 e i)) (fun i k => x4 (ix2 i k)) (fun k => x5 (ix1 k)) k := by
  rw [val_main_v14_apply, val_main_v7_apply, val_main_v13_apply, val_main_v11_apply, val_main_v10_apply,
    val_main_v9_apply, val_main_v5_apply, val_main_v4_apply, val_main_cst_apply, val_main_v6_apply,
    val_main_cst_0_apply, val_main_v8_apply, val_main_cst_1_apply, val_main_v12_apply, val_main_cst_2_apply,
    pre_apply]
  rfl

/-- Edge `e`, column `j` of the reference's message array (the product it scatters) is the edge message of feature row
    `e` and the gathered entry at `(e, j)`. -/
theorem ref_msg_apply (x0 : (⟨S1600000x64, .f32⟩ : BufTy).Contents (Elt Ideal)) (x1 : (⟨S100000x64, .f32⟩ : BufTy).Contents (Elt Ideal))
    (x2 : (⟨S1600000, .i32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (e : Fin 1600000) (j : Fin 64) :
    val_main_v26 (F := Ideal) x0 x1 x2 x4 x5 x6 x7 (ix2 e j)
      = Cert.Spec.edgeMsg (fun i => x0 (ix2 e i)) (fun i k => x4 (ix2 i k)) (fun k => x5 (ix1 k))
          (fun k j' => x6 (ix2 k j')) (fun j' => x7 (ix1 j')) (val_main_v25 (F := Ideal) x1 x2 (ix2 e j)) j := by
  rw [val_main_v26_apply, val_main_v18_apply, val_main_v15_apply, val_main_v17_apply, val_main_v16_apply, bidx16,
    Ideal.mulf_def, Ideal.addf_def]
  simp only [lidx15, ridx15, hidden_apply]
  rfl

end Cert.Proof.RefRow

end
-- ==== Proof.lean ====
import proofs.«174815_j47614007443631_1_alg».proof.Defs
import proofs.«174815_j47614007443631_1_alg».proof.Proof.Gen.Kernel
import proofs.«174815_j47614007443631_1_alg».proof.Proof.Gen.KernelIdeal
import proofs.«174815_j47614007443631_1_alg».proof.Proof.Gen.ReferenceIdeal
import proofs.«174815_j47614007443631_1_alg».proof.Proof.Gen.Pre_finite_inputs
import proofs.«174815_j47614007443631_1_alg».proof.Proof.Gen.ReferenceIdeal.Run
import proofs.«174815_j47614007443631_1_alg».proof.Proof.Gen.ReferenceIdeal.Read
import proofs.«174815_j47614007443631_1_alg».proof.Proof.K.Frame
import proofs.«174815_j47614007443631_1_alg».proof.Proof.KI.Frame
import proofs.«174815_j47614007443631_1_alg».proof.Proof.KI.Exact
import proofs.«174815_j47614007443631_1_alg».proof.Proof.KI.MsgArray
import proofs.«174815_j47614007443631_1_alg».proof.Proof.KI.Host
import proofs.«174815_j47614007443631_1_alg».proof.Proof.RefRow
import Idealize.ShloMosaic.Adequacy
import Idealize.ShloMosaic.Init

/-!
A continuous-filter convolution layer of a graph network: for 1 600 000 edges with 64 radial features each, the edge filter
is a two-layer perceptron (affine, soft-plus of slope one half with threshold fourteen, affine); the message of an edge is
the source node's feature row times its filter, and the messages are summed into their destination nodes.

The kernel gathers the source rows on the host, computes the messages in one pipelined region over blocks of 4096 edges
(391 blocks, the last holding 2560 edges), and scatter-adds them on the host; the reference does all of it on the host.
On the extended reals a format change is the identity and a matrix product into a zero accumulator is the plain sum of
products, so element `(e, j)` of both message arrays is the same expression of edge `e`'s feature row, the parameters
and the gathered entry — the same operations in the same order, hence no finiteness is used —, and the two scatters sum
equal arrays at equal indices.

The frames: the reference is host operations only; the kernel's frame does not name what the region stores (the rows of
the last block past the arrays' end hold words the machine picks), only that the arguments are never written.
-/

noncomputable section

namespace Cert.Proof

open Idealize.ShloMosaic Idealize.ShloMosaic.TcCoe Idealize.ShloMosaic.ValueIdx Idealize.SL.Sem

/-! ## The frames -/

theorem frame_k [Cert.Kernel.Facts] [Cert.Pre_finite_inputs.Facts] : Cert.frame_Kernel :=
  fun m ρ _ => Cert.Proof.K.frame (F := Bits) m ρ

theorem frame_ki [Cert.KernelIdeal.Facts] [Cert.Pre_finite_inputs.Facts] : Cert.frame_KernelIdeal :=
  fun m ρ _ => Cert.Proof.KI.frame (F := Ideal) m ρ

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-! ## The two message arrays are one -/

section Msg

open Cert.KernelIdeal Cert.KernelIdeal.Gen

variable [Cert.KernelIdeal.Facts] [Cert.ReferenceIdeal.Facts]

/-- The reference's message array of the kernel's arguments is the array the kernel's region leaves: at `(e, j)` both are
    the message of edge `e` at column `j`, of the same feature row, parameters and gathered entry. -/
theorem msg_eq (m : (ℓ : Loc nD τ sig) → Buf (Elt Ideal) ℓ) (c : Dev nD) :
    Cert.ReferenceIdeal.Read.val_main_v26 (F := Ideal) (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg5))
        (m ((c.tc : Thread nD τ).loc main_arg6)) (m ((c.tc : Thread nD τ).loc main_arg7))
      = Cert.Proof.KI.msgA m c := by
  funext i
  obtain ⟨e, j, rfl⟩ : ∃ (e : Fin 1600000) (j : Fin 64), i = ix2 e j := ⟨i 0, i 1, eq_ix2 i⟩
  rw [Cert.Proof.RefRow.ref_msg_apply]
  refine Eq.trans ?_ (Cert.Proof.KI.msg_array_apply m c e j).symm
  have hb1 : (fun k : Fin 64 => Cert.Proof.KI.b1A m c (ix2 (0 : Fin 1) k)) = fun k => (m ((c.tc : Thread nD τ).loc main_arg5) : Vec Ideal S64 .f32) (ix1 k) :=
    funext fun k => Cert.Proof.KI.b1_apply m c k
  have hb2 : (fun k : Fin 64 => Cert.Proof.KI.b2A m c (ix2 (0 : Fin 1) k)) = fun k => (m ((c.tc : Thread nD τ).loc main_arg7) : Vec Ideal S64 .f32) (ix1 k) :=
    funext fun k => Cert.Proof.KI.b2_apply m c k
  rw [hb1, hb2, Cert.Proof.KI.rbf_eq m c, Cert.Proof.KI.w1_eq m c, Cert.Proof.KI.w2_eq m c, Cert.Proof.KI.gat_eq m c]
  rfl

end Msg

/-! ## The claims -/

theorem preserves : Cert.preserves_Kernel_KernelIdeal := trivial

theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Host.scatterAdd Cert.KernelIdeal.scatter_S100000x64_S1600000x1_S1600000x64_1_0_0_1
      (broadcastInDim Cert.KernelIdeal.S100000x64 ![] Cert.KernelIdeal.Facts₀.bcast_S_S100000x64 (constant (F := Ideal) Cert.KernelIdeal.S_ .f32 0x00000000#32))
      (broadcastInDim Cert.KernelIdeal.S1600000x1 ![0] Cert.KernelIdeal.Facts₀.bcast_S1600000_S1600000x1_0 (m ((c.tc : Thread Cert.KernelIdeal.nD Cert.KernelIdeal.τ).loc Cert.KernelIdeal.main_arg3)))
      (Cert.Proof.KI.msgA m c), ?_, ?_⟩
  · -- the kernel: the frame run with the arrays named, read at the result and at the arguments
    refine (θ_run Cert.KernelIdeal.defs _ _).mono (fun r h c => ⟨?_, ?_⟩) (Cert.Proof.KI.run_main m ρ)
    · -- the result bypasses the region and is written by the last line after it
      exact ((h c).2 Cert.KernelIdeal.main_v12 (Pipeline.mem_restRefs_of Cert.KernelIdeal.main_v12 (by decide) (by decide))).trans
        (Cert.Proof.KI.result_eq m c)
    · -- the arguments: three are inputs of the region, five bypass it and no later line writes them
      exact ⟨((h c).1 0).trans (((Cert.Proof.KI.dats (F := Ideal) m 0 c).arrAt_in 0 rfl _).trans ((Cert.Proof.KI.A_eq m c 0).trans (Cert.KernelIdeal.Gen.V_main_arg0 m c))),
        (((h c).2 Cert.KernelIdeal.main_arg1 (Pipeline.mem_restRefs_of Cert.KernelIdeal.main_arg1 (by decide) (by decide))).trans (Cert.KernelIdeal.Gen.W_main_arg1 m (Cert.Proof.KI.dats (F := Ideal) m) c)),
        (((h c).2 Cert.KernelIdeal.main_arg2 (Pipeline.mem_restRefs_of Cert.KernelIdeal.main_arg2 (by decide) (by decide))).trans (Cert.KernelIdeal.Gen.W_main_arg2 m (Cert.Proof.KI.dats (F := Ideal) m) c)),
        (((h c).2 Cert.KernelIdeal.main_arg3 (Pipeline.mem_restRefs_of Cert.KernelIdeal.main_arg3 (by decide) (by decide))).trans (Cert.KernelIdeal.Gen.W_main_arg3 m (Cert.Proof.KI.dats (F := Ideal) m) c)),
        ((h c).1 2).trans (((Cert.Proof.KI.dats (F := Ideal) m 0 c).arrAt_in 2 rfl _).trans ((Cert.Proof.KI.A_eq m c 2).trans (Cert.KernelIdeal.Gen.V_main_arg4 m c))),
        (((h c).2 Cert.KernelIdeal.main_arg5 (Pipeline.mem_restRefs_of Cert.KernelIdeal.main_arg5 (by decide) (by decide))).trans (Cert.KernelIdeal.Gen.W_main_arg5 m (Cert.Proof.KI.dats (F := Ideal) m) c)),
        ((h c).1 4).trans (((Cert.Proof.KI.dats (F := Ideal) m 0 c).arrAt_in 4 rfl _).trans ((Cert.Proof.KI.A_eq m c 4).trans (Cert.KernelIdeal.Gen.V_main_arg6 m c))),
        (((h c).2 Cert.KernelIdeal.main_arg7 (Pipeline.mem_restRefs_of Cert.KernelIdeal.main_arg7 (by decide) (by decide))).trans (Cert.KernelIdeal.Gen.W_main_arg7 m (Cert.Proof.KI.dats (F := Ideal) m) c))⟩
  · -- the reference: its run, its result the scatter of its message array, which is the kernel's
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    unfold Cert.ReferenceIdeal.Read.val_main_v29
    rw [msg_eq m c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
